-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S16384x4096 : Shape := ⟨2, ![16384, 4096]⟩
abbrev S16384 : Shape := ⟨1, ![16384]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384x4096 1) : IVec S_ 1 :=
  let main_c_5 : IVec S_ 1 := constantI S_ 1 1#1
  let main_v17 : IVec S_ 1 := (fun x v => Host.reduce IntOp.andi x v reducesTo_S16384x4096_S_d0_1 h_S_) main_v16 main_c_5
  let main_v18 : IVec S_ 1 := andi main_v13 main_v17
  main_v18

def fn {F : FTy → Type} [FloatOps F] (main_arg0 : FVec F S4096x4096 .f32) (main_arg1 : FVec F S16384x4096 .f32) (main_arg2 : FVec F S16384 .f32) (main_arg3 : FVec F S16384x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384x4096 .f32 := Host.absf main_arg3
  let main_cst_4 : FVec F S_ .f32 := constant S_ .f32 0x7F800000#32
  let main_v15 : FVec F S16384x4096 .f32 := broadcastInDim S16384x4096 ![] bcast_S_S16384x4096 main_cst_4
  let main_v16 : IVec S16384x4096 1 := cmpf .olt main_v14 main_v15
  fn_part1 (F := F) main_v13 main_v16
-- ==== Kernel.lean ====
abbrev S4096x4096 : Shape := ⟨2, ![4096, 4096]⟩
abbrev S16384x4096 : Shape := ⟨2, ![16384, 4096]⟩
abbrev S16384 : Shape := ⟨1, ![16384]⟩
abbrev S_ : Shape := ⟨0, ![]⟩
abbrev S1x1 : Shape := ⟨2, ![1, 1]⟩
abbrev S4096x16384 : Shape := ⟨2, ![4096, 16384]⟩
abbrev S256x4096 : Shape := ⟨2, ![256, 4096]⟩
abbrev S128x4096 : Shape := ⟨2, ![128, 4096]⟩
abbrev S128 : Shape := ⟨1, ![128]⟩
abbrev S256x128 : Shape := ⟨2, ![256, 128]⟩
abbrev S1x128 : Shape := ⟨2, ![1, 128]⟩

abbrev nBuf : Space → Nat
  | .hbm => 9
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S16384x4096, .f32⟩
  | .hbm, ⟨5, _⟩ => ⟨S_, .f32⟩
  | .hbm, ⟨6, _⟩ => ⟨S_, .f32⟩
  | .hbm, ⟨7, _⟩ => ⟨S1x1, .f32⟩
  | .hbm, ⟨8, _⟩ => ⟨S4096x16384, .f32⟩
  | .local _ .vmem, ⟨0, _⟩ => ⟨S256x4096, .f32⟩
  | .local _ .vmem, ⟨1, _⟩ => ⟨S256x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128, .f32⟩
  | .local _ .vmem, ⟨7, _⟩ => ⟨S128, .f32⟩
  | .local _ .vmem, ⟨8, _⟩ => ⟨S1x1, .f32⟩
  | .local _ .vmem, ⟨9, _⟩ => ⟨S256x128, .f32⟩
  | .local _ .vmem, ⟨10, _⟩ => ⟨S256x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S16384x4096_S_d0_1 : S16384x4096.ReducesTo [0, 1] S_
  h_S_ : 0 < S_.numel
  shapeCasts_S_S1x1 : S_.ShapeCasts S1x1
  inb_S128x4096_S128x4096_0_0 : ∀ a, (![0, 0] : Fin 2 → Nat) a + S128x4096.size a ≤ S128x4096.size a
  h_S128x4096 : 0 < S128x4096.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  natLt_1_32 : 1 < 32
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  dot_S256x4096_S128x4096_S256x128_1_1_0_0_n_n_wf : DotDims.WF S256x4096 S128x4096 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S16384x4096.size a
  hwx0_1 : ∀ i : grid0.Coords, EltTy.bits .f32 = 32 ∨ (Rect.block (s := S16384x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S16384x4096.size a
  hwx0_2 : ∀ i : grid0.Coords, EltTy.bits .f32 = 32 ∨ (Rect.block (s := S16384x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S16384.size a
  hwx0_3 : ∀ i : grid0.Coords, EltTy.bits .f32 = 32 ∨ (Rect.block (s := S16384) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S4096x16384.size a
  hwx0_5 : ∀ i : grid0.Coords, EltTy.bits .f32 = 32 ∨ (Rect.block (s := S4096x16384) S256x128.size (cc0_transform_5 i) (hinb0_5 i)).WholeWords (EltTy.packing .f32)

variable [Facts₀]

def dot_S256x4096_S128x4096_S256x128_1_1_0_0_n_n : DotDims S256x4096 S128x4096 S256x128 where
  lhsContracting := [1]
  rhsContracting := [1]
  lhsNonContracting := [0]
  rhsNonContracting := [0]
  lhsBatch := []
  rhsBatch := []
  wf := dot_S256x4096_S128x4096_S256x128_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S16384x4096 : Shape := ⟨2, ![16384, 4096]⟩
abbrev S16384 : Shape := ⟨1, ![16384]⟩
abbrev S_ : Shape := ⟨0, ![]⟩
abbrev S4096x16384 : Shape := ⟨2, ![4096, 16384]⟩
abbrev S1x16384 : Shape := ⟨2, ![1, 16384]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S16384x4096, .f32⟩
  | .hbm, ⟨5, _⟩ => ⟨S_, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .i1⟩
  | .hbm, ⟨12, _⟩ => ⟨S_, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .i1⟩
  | .hbm, ⟨19, _⟩ => ⟨S16384x4096, .f32⟩
  | .hbm, ⟨20, _⟩ => ⟨S16384x4096, .f32⟩
  | .hbm, ⟨21, _⟩ => ⟨S4096x16384, .f32⟩
  | .hbm, ⟨22, _⟩ => ⟨S1x16384, .f32⟩
  | .hbm, ⟨23, _⟩ => ⟨S4096x16384, .f32⟩
  | .hbm, ⟨24, _⟩ => ⟨S4096x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  dot_S4096x4096_S16384x4096_S4096x16384_1_1_0_0_n_n_wf : DotDims.WF S4096x4096 S16384x4096 S4096x16384 [1] [1] [0] [0] [] []

variable [Facts₀]

def dot_S4096x4096_S16384x4096_S4096x16384_1_1_0_0_n_n : DotDims S4096x4096 S16384x4096 S4096x16384 where
  lhsContracting := [1]
  rhsContracting := [1]
  lhsNonContracting := [0]
  rhsNonContracting := [0]
  lhsBatch := []
  rhsBatch := []
  wf := dot_S4096x4096_S16384x4096_S4096x16384_1_1_0_0_n_n_wf

class Facts : Prop extends Facts₀ where

variable [Facts]
-- ==== Proof.BinarizedLinear.lean ====
/-
  The linear layer with stochastically binarized weights, as ONE function of its four argument arrays on the
  extended reals.

  Each weight entry w[o,k] is replaced by the product of two indicators: "w[o,k] is positive" (a select between the
  constants 1 and 0) and "the noise n[o,k] lies below the keep-probability |w[o,k]| / max |w|" (a one-bit comparison
  read as the number 0 or 1). The layer's output is then the ordinary affine map

      out[t,o] = (sum over k of x[t,k] * q[o,k]) + b[o],      q[o,k] = 1[w[o,k] > 0] * 1[n[o,k] < |w[o,k]| / max|w|],

  where max |w| is the maximum of |w| over the whole weight array, folded from minus infinity.

  A one-bit comparison result can be turned into a number in two ways: read it as an unsigned integer, or widen it with
  zeros to 32 bits and read that as a signed integer. Both give 0 for the bit 0 and 1 for the bit 1 (`bit_as_number`), so
  the two spellings of an entry of q are one function (`entry_of_widened`).
-/
import Idealize.ShloMosaic.PureOps.Ideal
import Idealize.ShloMosaic.PureOps.Ideal.Laws
import Idealize.ShloMosaic.PureOps.Contract
import Idealize.ShloMosaic.Lib.ValueIdx

noncomputable section

open scoped BigOperators

namespace Cert.BinarizedLinear

open Idealize.ShloMosaic Idealize.ShloMosaic.ValueIdx

/-- The activations [tokens, in], the weights and the noise [out, in], the bias [out], the result [tokens, out], and the
    rank-zero shape of the one maximum. -/
abbrev ShX : Shape := ⟨2, ![4096, 4096]⟩
abbrev ShW : Shape := ⟨2, ![16384, 4096]⟩
abbrev ShB : Shape := ⟨1, ![16384]⟩
abbrev ShO : Shape := ⟨2, ![4096, 16384]⟩
abbrev Sh0 : Shape := ⟨0, ![]⟩

theorem reduces_all : ShW.ReducesTo [0, 1] Sh0 := by decide
theorem one_entry : 0 < Sh0.numel := by decide

/-- max |w| over the whole weight array: the fold of `max` from minus infinity (the word 0xFF800000). -/
def maxAbs (w : FVec Ideal ShW .f32) : Ideal .f32 :=
  Host.reduce FloatOps.maximumf (Host.absf w) (constant Sh0 .f32 0xFF800000#32) reduces_all one_entry ix0

/-- One entry of the binarized weight from the weight, the noise and the maximum: the positive-sign indicator times the
    keep indicator. -/
def qEntry (wv nv mx : Ideal .f32) : Ideal .f32 :=
  FloatOps.mulf
    (Scalar.select (FloatOps.cmpf .ogt wv (FloatOps.ofBits .f32 0x00000000#32))
      (FloatOps.ofBits .f32 0x3F800000#32) (FloatOps.ofBits .f32 0x00000000#32))
    (FloatOps.uitofp .f32 (FloatOps.cmpf .olt nv (FloatOps.hostDivf (FloatOps.hostAbsf wv) mx)))

/-- A bit widened with zeros to 32 bits and read signed is the bit read unsigned: 0 or 1 either way. -/
theorem bit_as_number (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : ℤ) := by
    rcases BitVec.eq_zero_or_eq_one b with rfl | rfl <;> decide
  rw [h, Int.cast_natCast]

/-- The same entry when the keep bit is widened to 32 bits and read signed, the quotient and the absolute value taken by
    the vector unit's operations (on the extended reals they are the host's). -/
theorem entry_of_widened (wv nv mx : Ideal .f32) :
    FloatOps.mulf
      (Scalar.select (FloatOps.cmpf .ogt wv (Scalar.ofBits .f32 0x00000000#32))
        (Scalar.ofBits .f32 0x3F800000#32) (Scalar.ofBits .f32 0x00000000#32))
      (FloatOps.sitofp .f32 ((FloatOps.cmpf .olt nv (FloatOps.divf (FloatOps.absf wv) mx)).setWidth 32))
      = qEntry wv nv mx := by
  rw [bit_as_number]
  rfl

/-- The row and the column of a result index. -/
abbrev rowOf (i : ShO.Idx) : Fin 4096 := ⟨(i 0).val, (i 0).isLt⟩
abbrev colOf (i : ShO.Idx) : Fin 16384 := ⟨(i 1).val, (i 1).isLt⟩

/-- THE LAYER: out[t,o] = (sum over k of x[t,k] * q[o,k]) + b[o]. -/
def layer (x : FVec Ideal ShX .f32) (w : FVec Ideal ShW .f32) (b : FVec Ideal ShB .f32) (n : FVec Ideal ShW .f32) :
    FVec Ideal ShO .f32 :=
  fun i => (∑ k : Fin 4096, x (ix2 (rowOf i) k) * qEntry (w (ix2 (colOf i) k)) (n (ix2 (colOf i) k)) (maxAbs w))
    + b (ix1 (colOf i))

end Cert.BinarizedLinear

end
-- ==== Proof.KernelBlock.lean ====
/-
  One grid point of the kernel, read at an entry of its output block.

  At a grid point the body holds a [256, 4096] block of activations, the matching [128, 4096] blocks of weights and of
  noise, 128 bias entries and the one-entry array with max |w|. It binarizes the weight block entry by entry (the
  positive-sign select times the keep bit, here widened to 32 bits and read signed), multiplies the activation block by
  the transpose of that binarized block into a zero accumulator — both factors narrowed to bf16 first, which changes
  nothing on the extended reals — and adds the bias as one row repeated 256 times. So the entry (p, q) of what it stores
  is the sum over k of x[p,k] times the entry (q,k) of the binarized block, plus bias[q].
-/
import proofs.«112998_j77910706749690_1_alg».proof.Proof.Gen.KernelIdeal.Skeleton
import proofs.«112998_j77910706749690_1_alg».proof.Proof.BinarizedLinear
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen Cert.BinarizedLinear
open Idealize.ShloMosaic Idealize.ShloMosaic.ValueIdx

/-! ## The block product's operand indices: rows of the left factor, rows of the right factor, one contracted axis -/

theorem lhs_axis0 (i : S256x128.Idx) (q : dot_S256x4096_S128x4096_S256x128_1_1_0_0_n_n.contr.Idx) :
    (dot_S256x4096_S128x4096_S256x128_1_1_0_0_n_n.lhsIdx i q 0).val = (i 0).val := by
  unfold DotDims.lhsIdx
  rw [dif_neg (show ¬(0 : Fin S256x4096.rank) ∈ dot_S256x4096_S128x4096_S256x128_1_1_0_0_n_n.lhsBatch by decide), dif_pos (show (0 : Fin S256x4096.rank) ∈ dot_S256x4096_S128x4096_S256x128_1_1_0_0_n_n.lhsNonContracting by decide)]
  rfl
theorem lhs_axis1 (i : S256x128.Idx) (q : dot_S256x4096_S128x4096_S256x128_1_1_0_0_n_n.contr.Idx) :
    (dot_S256x4096_S128x4096_S256x128_1_1_0_0_n_n.lhsIdx i q 1).val = (q ⟨0, by decide⟩).val :=
  dot_S256x4096_S128x4096_S256x128_1_1_0_0_n_n.lhsIdx_val_of_single rfl i q
theorem rhs_axis0 (i : S256x128.Idx) (q : dot_S256x4096_S128x4096_S256x128_1_1_0_0_n_n.contr.Idx) :
    (dot_S256x4096_S128x4096_S256x128_1_1_0_0_n_n.rhsIdx i q 0).val = (i 1).val := by
  unfold DotDims.rhsIdx
  rw [dif_neg (show ¬(0 : Fin S128x4096.rank) ∈ dot_S256x4096_S128x4096_S256x128_1_1_0_0_n_n.rhsBatch by decide), dif_pos (show (0 : Fin S128x4096.rank) ∈ dot_S256x4096_S128x4096_S256x128_1_1_0_0_n_n.rhsNonContracting by decide)]
  rfl
theorem rhs_axis1 (i : S256x128.Idx) (q : dot_S256x4096_S128x4096_S256x128_1_1_0_0_n_n.contr.Idx) :
    (dot_S256x4096_S128x4096_S256x128_1_1_0_0_n_n.rhsIdx i q 1).val = (q ⟨0, by decide⟩).val :=
  dot_S256x4096_S128x4096_S256x128_1_1_0_0_n_n.rhsIdx_val_of_single rfl i q

/-- The product of a [256, 4096] block with the transpose of a [128, 4096] block, both narrowed to bf16 (the identity on
    the extended reals), into zero, at the entry (p, q): the sum over the 4096 shared columns of the products of row p
    and row q. -/
theorem product_apply (l : FVec Ideal S256x4096 .f32) (r : FVec Ideal S128x4096 .f32) (p : Fin 256) (q : Fin 128) :
    matmul dot_S256x4096_S128x4096_S256x128_1_1_0_0_n_n none (truncf .bf16 l bitsLt_bf16_f32) (truncf .bf16 r bitsLt_bf16_f32)
        (constant S256x128 .f32 0x00000000#32) (ix2 p q)
      = ∑ k : Fin 4096, l (ix2 p k) * r (ix2 q k) := by
  simp only [matmul]
  rw [Ideal.matmul_constant_zero_apply, ← Equiv.sum_comp (contrEquiv1 dot_S256x4096_S128x4096_S256x128_1_1_0_0_n_n 4096 rfl rfl).symm]
  refine Finset.sum_congr rfl fun k _ => ?_
  have hk := contrEquiv1_symm_val dot_S256x4096_S128x4096_S256x128_1_1_0_0_n_n 4096 rfl rfl k
  have el : dot_S256x4096_S128x4096_S256x128_1_1_0_0_n_n.lhsIdx (ix2 p q) ((contrEquiv1 dot_S256x4096_S128x4096_S256x128_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S256x4096_S128x4096_S256x128_1_1_0_0_n_n.rhsIdx (ix2 p q) ((contrEquiv1 dot_S256x4096_S128x4096_S256x128_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]
  rfl

/-- The 128 bias entries as one row repeated over 256 rows: the entry (p, q) is bias[q]. -/
theorem bias_rows_apply (v : FVec Ideal S128 .f32) (p : Fin 256) (q : Fin 128) :
    broadcastTo S256x128 (shapeCast S1x128 v shapeCasts_S128_S1x128) broadcasts_S1x128_S256x128 (ix2 p q) = v (ix1 q) := by
  rw [broadcastTo_1b_ab_apply, shapeCast_a_1a_apply]

/-- The one-entry array read at its static position [0, 0] is its entry (0, 0). -/
theorem corner (v : Vec Ideal S1x1 .f32) : extractAt ![0, 0] v inpos_S1x1_p0_0 = v (ix2 0 0) :=
  congrArg v (funext fun a => Fin.ext (by match a with | ⟨0, _⟩ => rfl | ⟨1, _⟩ => rfl))

/-- The binarized weight block, entry by entry: the positive-sign select times the keep bit widened and read signed is the
    indicator product of the weight, the noise and the maximum at that entry. -/
theorem qblock_apply (v0 v1 : FVec Ideal S128x4096 .f32) (mx : Ideal .f32) (j : S128x4096.Idx) :
    mulf
        (select (cmpf .ogt v0 (broadcast S128x4096 (Scalar.ofBits .f32 0x00000000#32)))
          (broadcast S128x4096 (Scalar.ofBits .f32 0x3F800000#32)) (broadcast S128x4096 (Scalar.ofBits .f32 0x00000000#32)))
        (sitofp .f32 (extui 32 (cmpf .olt v1 (divf (absf v0) (broadcast S128x4096 mx))) natLt_1_32)) j
      = qEntry (v0 j) (v1 j) mx :=
  entry_of_widened (v0 j) (v1 j) mx

/-- The stored block at an entry, with max |w| still spelt as the read of the one-entry array at its static position. -/
theorem payload_at (v0 v1 : Vec Ideal S128x4096 .f32) (v2 : Vec Ideal S1x1 .f32) (v17 : Vec Ideal S256x4096 .f32)
    (v20 : Vec Ideal S128 .f32) (p : Fin 256) (q : Fin 128) :
    k0_pay1 (F := Ideal) v0 v1 v2 v17 v20 (ix2 p q)
      = (∑ k : Fin 4096, v17 (ix2 p k)
          * qEntry (v0 (ix2 q k)) (v1 (ix2 q k)) (extractAt ![0, 0] v2 inpos_S1x1_p0_0)) + v20 (ix1 q) := by
  dsimp only [k0_pay1]
  rw [addf_apply, product_apply, bias_rows_apply]
  congr 1
  refine Finset.sum_congr rfl fun k _ => ?_
  rw [qblock_apply]

/-- THE STORED BLOCK AT AN ENTRY: the sum over k of x[p,k] times the binarized weight entry (q,k), plus bias[q]. -/
theorem payload_apply (v0 v1 : Vec Ideal S128x4096 .f32) (v2 : Vec Ideal S1x1 .f32) (v17 : Vec Ideal S256x4096 .f32)
    (v20 : Vec Ideal S128 .f32) (p : Fin 256) (q : Fin 128) :
    k0_pay1 (F := Ideal) v0 v1 v2 v17 v20 (ix2 p q)
      = (∑ k : Fin 4096, v17 (ix2 p k) * qEntry (v0 (ix2 q k)) (v1 (ix2 q k)) (v2 (ix2 0 0))) + v20 (ix1 q) :=
  (payload_at v0 v1 v2 v17 v20 p q).trans (by rw [corner v2])

end Cert.KernelIdeal.Block

end
-- ==== Proof.GridIndex.lean ====
/-
  Where each window's block sits at a grid point.

  The grid has 16 x 128 points walked row-major, so point t has coordinates (t / 128, t % 128): the first picks a band
  of 256 tokens, the second a band of 128 output features. The activation window follows the token band and spans all
  4096 input features; the weight, noise and bias windows follow the output-feature band; the one-entry window with
  max |w| never moves; the result window follows both. Each statement is a finite check over the 2048 points.
-/
import proofs.«112998_j77910706749690_1_alg».proof.Proof.Gen.KernelIdeal.Points

set_option Elab.async false

namespace Cert.KernelIdeal.GridIndex

open Cert.KernelIdeal Cert.KernelIdeal.Gen Idealize.ShloMosaic

/-- The result block at point t is block (t / 128, t % 128). -/
theorem out_index : ∀ t : Fin cfg0.N, win0_5.index t (0 : Fin 2) = t.val / 128 ∧ win0_5.index t (1 : Fin 2) = t.val % 128 :=
  (by decide +kernel : ∀ t : Fin grid0.N, _)

/-- The activation block is token band t / 128, all input features. -/
theorem x_index : ∀ t : Fin cfg0.N, win0_0.index t (0 : Fin 2) = t.val / 128 ∧ win0_0.index t (1 : Fin 2) = 0 :=
  (by decide +kernel : ∀ t : Fin grid0.N, _)

/-- The weight block is output-feature band t % 128, all input features. -/
theorem w_index : ∀ t : Fin cfg0.N, win0_1.index t (0 : Fin 2) = t.val % 128 ∧ win0_1.index t (1 : Fin 2) = 0 :=
  (by decide +kernel : ∀ t : Fin grid0.N, _)

/-- The noise block is the same band as the weight block. -/
theorem n_index : ∀ t : Fin cfg0.N, win0_2.index t (0 : Fin 2) = t.val % 128 ∧ win0_2.index t (1 : Fin 2) = 0 :=
  (by decide +kernel : ∀ t : Fin grid0.N, _)

/-- The bias block is output-feature band t % 128. -/
theorem b_index : ∀ t : Fin cfg0.N, win0_3.index t (0 : Fin 1) = t.val % 128 :=
  (by decide +kernel : ∀ t : Fin grid0.N, _)

/-- The one-entry window stays at its only block. -/
theorem m_index : ∀ t : Fin cfg0.N, win0_4.index t (0 : Fin 2) = 0 ∧ win0_4.index t (1 : Fin 2) = 0 :=
  (by decide +kernel : ∀ t : Fin grid0.N, _)

end Cert.KernelIdeal.GridIndex
-- ==== Proof.KernelLayer.lean ====
/-
  The kernel's result array is the layer.

  Grid point t = (i, j) works on token band i (256 rows of the activations) and output-feature band j (128 rows of the
  weights and of the noise, 128 bias entries), and writes the [256, 128] block (i, j) of the result. Read through their
  rectangles, the blocks are the argument arrays at rows 256 i + p and 128 j + q; the one-entry window holds max |w|,
  which the host operations before the region computed from the weights. So the block a point writes back is that
  block of the layer, the 16 x 128 blocks tile the [4096, 16384] result, and the array ends holding the layer.
-/
import proofs.«112998_j77910706749690_1_alg».proof.Proof.Gen.KernelIdeal.Value
import proofs.«112998_j77910706749690_1_alg».proof.Proof.KernelBlock
import proofs.«112998_j77910706749690_1_alg».proof.Proof.GridIndex
import proofs.«112998_j77910706749690_1_alg».proof.Proof.BinarizedLinear
import Idealize.ShloMosaic.Lib.Pipeline.Value
import Idealize.ShloMosaic.Lib.StableHlo.Run
import Idealize.ShloMosaic.Lib.ValueIdx

noncomputable section

open scoped BigOperators

namespace Cert.KernelIdeal.Layer

open Cert.KernelIdeal Cert.KernelIdeal.Gen Cert.KernelIdeal.Block Cert.KernelIdeal.GridIndex Cert.BinarizedLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-! ## The five input blocks at a point, under their literal types -/

abbrev xblk (c : Dev nD) (t : Fin cfg0.N) : Vec Ideal S256x4096 .f32 := iblk m c 0 t
abbrev wblk (c : Dev nD) (t : Fin cfg0.N) : Vec Ideal S128x4096 .f32 := iblk m c 1 t
abbrev nblk (c : Dev nD) (t : Fin cfg0.N) : Vec Ideal S128x4096 .f32 := iblk m c 2 t
abbrev bblk (c : Dev nD) (t : Fin cfg0.N) : Vec Ideal S128 .f32 := iblk m c 3 t
abbrev mblk (c : Dev nD) (t : Fin cfg0.N) : Vec Ideal S1x1 .f32 := iblk m c 4 t

/-- Row p of the activation block at point t is row 256 (t / 128) + p of the activations. -/
theorem xblk_apply (c : Dev nD) (t : Fin cfg0.N) (p : Fin 256) (k : Fin 4096) (i : S4096x4096.Idx)
    (h0 : (i 0).val = t.val / 128 * 256 + p.val) (h1 : (i 1).val = k.val) :
    xblk m c t (ix2 p k) = ((m ((c : Thread nD τ).loc main_arg0)) : S4096x4096.Idx → Elt Ideal .f32) i := by
  obtain ⟨e0, e1⟩ := x_index t
  unfold xblk iblk
  rw [View.read_apply]
  show V m c main_arg0 _ = _
  rw [V_main_arg0]
  congr 1
  funext a
  apply Fin.ext
  match a with
  | ⟨0, _⟩ => show win0_0.index t 0 * 256 + 1 * p.val = (i 0).val; rw [e0, h0]; omega
  | ⟨1, _⟩ => show win0_0.index t 1 * 4096 + 1 * k.val = (i 1).val; rw [e1, h1]; omega

/-- Row q of the weight block at point t is row 128 (t % 128) + q of the weights. -/
theorem wblk_apply (c : Dev nD) (t : Fin cfg0.N) (q : Fin 128) (k : Fin 4096) (i : S16384x4096.Idx)
    (h0 : (i 0).val = t.val % 128 * 128 + q.val) (h1 : (i 1).val = k.val) :
    wblk m c t (ix2 q k) = ((m ((c : Thread nD τ).loc main_arg1)) : S16384x4096.Idx → Elt Ideal .f32) i := by
  obtain ⟨e0, e1⟩ := w_index t
  unfold wblk iblk
  rw [View.read_apply]
  show V m c main_arg1 _ = _
  rw [V_main_arg1]
  congr 1
  funext a
  apply Fin.ext
  match a with
  | ⟨0, _⟩ => show win0_1.index t 0 * 128 + 1 * q.val = (i 0).val; rw [e0, h0]; omega
  | ⟨1, _⟩ => show win0_1.index t 1 * 4096 + 1 * k.val = (i 1).val; rw [e1, h1]; omega

/-- Row q of the noise block at point t is row 128 (t % 128) + q of the noise. -/
theorem nblk_apply (c : Dev nD) (t : Fin cfg0.N) (q : Fin 128) (k : Fin 4096) (i : S16384x4096.Idx)
    (h0 : (i 0).val = t.val % 128 * 128 + q.val) (h1 : (i 1).val = k.val) :
    nblk m c t (ix2 q k) = ((m ((c : Thread nD τ).loc main_arg3)) : S16384x4096.Idx → Elt Ideal .f32) i := by
  obtain ⟨e0, e1⟩ := n_index t
  unfold nblk iblk
  rw [View.read_apply]
  show V m c main_arg3 _ = _
  rw [V_main_arg3]
  congr 1
  funext a
  apply Fin.ext
  match a with
  | ⟨0, _⟩ => show win0_2.index t 0 * 128 + 1 * q.val = (i 0).val; rw [e0, h0]; omega
  | ⟨1, _⟩ => show win0_2.index t 1 * 4096 + 1 * k.val = (i 1).val; rw [e1, h1]; omega

/-- Entry q of the bias block at point t is entry 128 (t % 128) + q of the bias. -/
theorem bblk_apply (c : Dev nD) (t : Fin cfg0.N) (q : Fin 128) (i : S16384.Idx)
    (h0 : (i 0).val = t.val % 128 * 128 + q.val) :
    bblk m c t (ix1 q) = ((m ((c : Thread nD τ).loc main_arg2)) : S16384.Idx → Elt Ideal .f32) i := by
  have e0 := b_index t
  unfold bblk iblk
  rw [View.read_apply]
  show V m c main_arg2 _ = _
  rw [V_main_arg2]
  congr 1
  funext a
  apply Fin.ext
  match a with
  | ⟨0, _⟩ => show win0_3.index t 0 * 128 + 1 * q.val = (i 0).val; rw [e0, h0]; omega

/-! ## max |w| at region entry -/

/-- The host operations before the region leave, in the one-entry array, the maximum of |w| recast to [1, 1]. -/
theorem max_at_entry (c : Dev nD) :
    (V m c main_v2 : S1x1.Idx → Elt Ideal .f32)
      = shapeCast S1x1 (Host.reduce FloatOps.maximumf (Host.absf ((m ((c : Thread nD τ).loc main_arg1)) : S16384x4096.Idx → Elt Ideal .f32))
          (constant (F := Ideal) S_ .f32 0xFF800000#32) reducesTo_S16384x4096_S_d0_1 h_S_) shapeCasts_S_S1x1 := by
  dsimp only [Gen.V, Gen.hostOps0]
  after_results
  rfl

/-- A rank-zero array recast to [1, 1] reads, anywhere, its one entry. -/
theorem recast_scalar (y : S_.Idx → Elt Ideal .f32) (j : S1x1.Idx) :
    shapeCast S1x1 y shapeCasts_S_S1x1 j = y ix0 := by
  unfold shapeCast
  exact congrArg y (eq_ix0 _)

/-- The fold the host operations compute is the specification's max |w| (the same fold, over the same shapes). -/
theorem host_max_eq (w : S16384x4096.Idx → Elt Ideal .f32) :
    Host.reduce FloatOps.maximumf (Host.absf w) (constant (F := Ideal) S_ .f32 0xFF800000#32)
      reducesTo_S16384x4096_S_d0_1 h_S_ ix0 = maxAbs w := rfl

/-- The one-entry block at a point reads the one-entry array, whatever that array holds (stated over a variable for the
    array's contents). -/
theorem mblk_of (c : Dev nD) (t : Fin cfg0.N) (X : S1x1.Idx → Elt Ideal .f32)
    (hX : (V m c main_v2 : S1x1.Idx → Elt Ideal .f32) = X) (y : S1x1.Idx) :
    mblk m c t y = X (((cfg0.win 4).blk t).view.emb y) := by
  have hV : (V m c (Pipeline.arrRef spec0 4) : S1x1.Idx → Elt Ideal .f32) = X := hX
  unfold mblk iblk
  rw [hV, View.read_apply]
  rfl

/-- The one-entry block at any point holds max |w|. -/
theorem mblk_apply (c : Dev nD) (t : Fin cfg0.N) : mblk m c t (ix2 0 0) = maxAbs (m ((c : Thread nD τ).loc main_arg1)) :=
  (mblk_of m c t _ (max_at_entry m c) (ix2 0 0)).trans ((recast_scalar _ _).trans (host_max_eq _))

/-! ## What a point writes back -/

/-- The block stored at point t, at its entry y = (p, q), is the layer at row 256 (t / 128) + p, column 128 (t % 128) + q. -/
theorem block_entry (c : Dev nD) (t : Fin cfg0.N) (y : S256x128.Idx) (i : S4096x16384.Idx)
    (h0 : (i 0).val = t.val / 128 * 256 + (y 0).val) (h1 : (i 1).val = t.val % 128 * 128 + (y 1).val) :
    k0_pay1 (F := Ideal) (wblk m c t) (nblk m c t) (mblk m c t) (xblk m c t) (bblk m c t) y
      = layer (m ((c : Thread nD τ).loc main_arg0)) (m ((c : Thread nD τ).loc main_arg1)) (m ((c : Thread nD τ).loc main_arg2)) (m ((c : Thread nD τ).loc main_arg3)) i := by
  obtain ⟨p, q, rfl⟩ : ∃ (p : Fin 256) (q : Fin 128), y = ix2 p q := ⟨y 0, y 1, eq_ix2 y⟩
  refine (payload_apply (wblk m c t) (nblk m c t) (mblk m c t) (xblk m c t) (bblk m c t) p q).trans ?_
  show _ + _ = _ + _
  congr 1
  · refine Finset.sum_congr rfl fun k _ => ?_
    rw [xblk_apply m c t p k (ix2 (rowOf i) k) h0 rfl, wblk_apply m c t q k (ix2 (colOf i) k) h1 rfl,
      nblk_apply m c t q k (ix2 (colOf i) k) h1 rfl, mblk_apply m c t]
  · exact bblk_apply m c t q (ix1 (colOf i)) h1

/-- What point t writes back is the stored block read through the result window's rectangle: if the stored block agrees,
    entry by entry, with a function G of the result's indices (stated over a variable G), the write-back is block t of G. -/
theorem flushed_of (c : Dev nD) (t : Fin cfg0.N) (G : S4096x16384.Idx → Elt Ideal .f32)
    (hG : ∀ y : S256x128.Idx,
      k0_pay1 (F := Ideal) (wblk m c t) (nblk m c t) (mblk m c t) (xblk m c t) (bblk m c t) y
        = G (((cfg0.win 5).blk t).view.emb y)) :
    (dats m 0 c).flushed 5 t = ((cfg0.win 5).blk t).view.read (Elt Ideal) G := by
  rw [Cert.KernelIdeal.Value.flushed5]
  unfold out0_5
  rw [View.canon_unit_zero zero2]
  simp only [View.ld_unit_zero (S := S128x4096) zero2, View.ld_unit_zero (S := S1x1) zero2,
    View.ld_unit_zero (S := S256x4096) zero2, View.ld_unit_zero (S := S128) zero1]
  funext j
  rw [View.read_apply]
  exact hG j

/-- WHAT POINT t WRITES BACK is block t of the layer of the argument arrays. -/
theorem flushed_eq (c : Dev nD) (t : Fin cfg0.N) :
    (dats m 0 c).flushed 5 t = ((cfg0.win 5).blk t).view.read (Elt Ideal) (layer (m ((c : Thread nD τ).loc main_arg0)) (m ((c : Thread nD τ).loc main_arg1)) (m ((c : Thread nD τ).loc main_arg2)) (m ((c : Thread nD τ).loc main_arg3))) := by
  obtain ⟨e0, e1⟩ := out_index t
  refine flushed_of m c t _ fun y => block_entry m c t y _ ?_ ?_
  · show win0_5.index t 0 * 256 + 1 * (y 0).val = _; rw [e0]; omega
  · show win0_5.index t 1 * 128 + 1 * (y 1).val = _; rw [e1]; omega

/-! ## The blocks tile the result -/

/-- An index of the result is in point t's block iff each coordinate is in the block's range on its axis. -/
theorem mem_blk (t : Fin cfg0.N) (i : S4096x16384.Idx) :
    i ∈ ((cfg0.win 5).blk t).view.set ↔ ∀ a : Fin 2, win0_5.index t a * S256x128.size a ≤ (i a).val ∧ (i a).val < win0_5.index t a * S256x128.size a + S256x128.size a := by
  show i ∈ ((View.whole main_v3).slice (win0_5.rect t)).set ↔ _
  rw [View.set_slice_whole, Rect.mem_set_unit]
  exact Iff.rfl

/-- Every index of the result lies in the block of the point (row / 256, column / 128). -/
theorem cover (i : S4096x16384.Idx) :
    ∃ t : Fin cfg0.N, (cfg0.win 5).flush t = true ∧ i ∈ ((cfg0.win 5).blk t).view.set := by
  have hi0 : (i 0).val < 4096 := (i 0).isLt
  have hi1 : (i 1).val < 16384 := (i 1).isLt
  have hN : cfg0.N = 2048 := N_0
  let t : Fin cfg0.N := ⟨(i 0).val / 256 * 128 + (i 1).val / 128, by rw [hN]; omega⟩
  have ht : t.val = (i 0).val / 256 * 128 + (i 1).val / 128 := rfl
  obtain ⟨e0, e1⟩ := out_index t
  refine ⟨t, flush0_5 t, ?_⟩
  rw [mem_blk]
  intro a
  match a with
  | ⟨0, _⟩ => show win0_5.index t 0 * 256 ≤ (i 0).val ∧ (i 0).val < win0_5.index t 0 * 256 + 256; rw [e0, ht]; omega
  | ⟨1, _⟩ => show win0_5.index t 1 * 128 ≤ (i 1).val ∧ (i 1).val < win0_5.index t 1 * 128 + 128; rw [e1, ht]; omega

/-- THE RESULT ARRAY after the run is the layer of the argument arrays. -/
theorem final (c : Dev nD) : (dats m 0 c).arrAt 5 cfg0.N = layer (m ((c : Thread nD τ).loc main_arg0)) (m ((c : Thread nD τ).loc main_arg1)) (m ((c : Thread nD τ).loc main_arg2)) (m ((c : Thread nD τ).loc main_arg3)) :=
  (dats m 0 c).arrAt_eq_of_cover 5 (layer (m ((c : Thread nD τ).loc main_arg0)) (m ((c : Thread nD τ).loc main_arg1)) (m ((c : Thread nD τ).loc main_arg2)) (m ((c : Thread nD τ).loc main_arg3))) (fun t _ => flushed_eq m c t) cover

/-- The run, read: the result array at the layer, the arguments unchanged. -/
theorem run : θ_run defs (onTc (τ := τ) (main (F := Ideal))) ⟨m, fun _ => 0, ρ⟩ fun r => ∀ c : Dev nD,
      r.2.mem ((c : Thread nD τ).loc main_v3) = layer (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Layer

end
-- ==== Proof.ReferenceLayer.lean ====
/-
  The reference computes the layer.

  Its program builds the binarized weight array entry by entry — the positive-sign select times the keep bit read as an
  unsigned number, the keep-probability |w| / max |w| with the one maximum broadcast to every entry — then contracts the
  activations with it over the input-feature axis and adds the bias broadcast along the token axis. Read at a result
  index (t, o) that is: the sum over k of x[t,k] times the entry (o,k), plus b[o]; and an entry read at (o,k) is the
  indicator product of w[o,k], n[o,k] and the maximum.
-/
import proofs.«112998_j77910706749690_1_alg».proof.Proof.Gen.ReferenceIdeal.Read
import proofs.«112998_j77910706749690_1_alg».proof.Proof.BinarizedLinear

noncomputable section

open scoped BigOperators

namespace Cert.ReferenceIdeal.Layer

open Cert.ReferenceIdeal Cert.ReferenceIdeal.Read Cert.BinarizedLinear
open Idealize.ShloMosaic Idealize.ShloMosaic.ValueIdx

/-- An entry of the reference's binarized weight array is the indicator product of the weight, the noise and max |w|. -/
theorem weight_entry (x1 x3 : (⟨S16384x4096, .f32⟩ : BufTy).Contents (Elt Ideal)) (j : S16384x4096.Idx) :
    val_main_v10 (F := Ideal) x1 x3 j = qEntry (x1 j) (x3 j) (maxAbs x1) := by
  rw [val_main_v10_apply, val_main_v7_apply, val_main_v6_apply, val_main_v5_apply, val_main_v4_apply,
    val_main_cst_0_apply, val_main_call0_v0_apply, val_main_cst_1_apply, val_main_call0_v1_apply,
    val_main_cst_2_apply, val_main_v9_apply, val_main_v8_apply, val_main_v3_apply, val_main_v0_apply,
    val_main_v2_apply]
  rfl

/-- The reference's result array is the layer of its four arguments. -/
theorem result_is_layer (x0 : (⟨S4096x4096, .f32⟩ : BufTy).Contents (Elt Ideal))
    (x1 : (⟨S16384x4096, .f32⟩ : BufTy).Contents (Elt Ideal)) (x2 : (⟨S16384, .f32⟩ : BufTy).Contents (Elt Ideal))
    (x3 : (⟨S16384x4096, .f32⟩ : BufTy).Contents (Elt Ideal)) :
    val_main_v14 (F := Ideal) x0 x1 x2 x3 = layer x0 x1 x2 x3 := by
  funext i
  rw [val_main_v14_apply, val_main_v11_apply, val_main_v13_apply, val_main_v12_apply]
  show _ + _ = _ + _
  congr 1
  · refine Finset.sum_congr rfl fun k _ => ?_
    have el : lidx_main_v11 i k = ix2 (rowOf i) k :=
      funext fun a => by match a with | ⟨0, _⟩ => rfl | ⟨1, _⟩ => rfl
    have er : ridx_main_v11 i k = ix2 (colOf i) k :=
      funext fun a => by match a with | ⟨0, _⟩ => rfl | ⟨1, _⟩ => rfl
    rw [el, er, weight_entry]
  · exact congrArg x2 (funext fun a => by match a with | ⟨0, _⟩ => rfl)

end Cert.ReferenceIdeal.Layer

end
-- ==== Proof.lean ====
/-
  A linear layer whose weights are binarized stochastically, computed by a tiled kernel, against its plain reference.

  Both programs replace each weight w[o,k] by the product of two indicators — "w[o,k] is positive" and "the noise n[o,k]
  lies below the keep-probability |w[o,k]| / max |w|", with max |w| taken over the whole weight array — and then compute
  the affine map out[t,o] = (sum over k of x[t,k] * q[o,k]) + b[o]. On the extended reals the two programs are this one
  function of their arguments:

  * the kernel walks a 16 x 128 grid of [256, 128] result blocks; each block is a product over the full contraction
    axis, so no partial sums are regrouped, and its entry (p, q) is the layer at row 256 i + p, column 128 j + q; the
    blocks tile the result;
  * the kernel narrows both factors to bf16 before the product, which is the identity on the extended reals, and reads
    the keep bit by widening it to 32 bits and converting it as a signed integer, where the reference converts the bit
    as an unsigned one: both give 0 or 1;
  * the reference is the same sum read through its broadcasts and its one contraction.

  No law of arithmetic beyond re-indexing a finite sum is used, so the finiteness of the inputs is never opened. The
  idealization rewrote no operation, so the kernel's idealized program is its own text read on the extended reals.
-/
import proofs.«112998_j77910706749690_1_alg».proof.Defs
import proofs.«112998_j77910706749690_1_alg».proof.Proof.Gen.Kernel
import proofs.«112998_j77910706749690_1_alg».proof.Proof.Gen.Kernel.Skeleton
import proofs.«112998_j77910706749690_1_alg».proof.Proof.Gen.Kernel.Launch
import proofs.«112998_j77910706749690_1_alg».proof.Proof.Gen.Kernel.Points
import proofs.«112998_j77910706749690_1_alg».proof.Proof.Gen.Kernel.Frame
import proofs.«112998_j77910706749690_1_alg».proof.Proof.Gen.KernelIdeal
import proofs.«112998_j77910706749690_1_alg».proof.Proof.Gen.KernelIdeal.Skeleton
import proofs.«112998_j77910706749690_1_alg».proof.Proof.Gen.KernelIdeal.Launch
import proofs.«112998_j77910706749690_1_alg».proof.Proof.Gen.KernelIdeal.Points
import proofs.«112998_j77910706749690_1_alg».proof.Proof.Gen.KernelIdeal.Frame
import proofs.«112998_j77910706749690_1_alg».proof.Proof.Gen.ReferenceIdeal
import proofs.«112998_j77910706749690_1_alg».proof.Proof.Gen.Pre_finite_inputs
import proofs.«112998_j77910706749690_1_alg».proof.Proof.Gen.KernelIdeal.Value
import proofs.«112998_j77910706749690_1_alg».proof.Proof.Gen.ReferenceIdeal.Run
import proofs.«112998_j77910706749690_1_alg».proof.Proof.Gen.ReferenceIdeal.Read
import proofs.«112998_j77910706749690_1_alg».proof.Proof.BinarizedLinear
import proofs.«112998_j77910706749690_1_alg».proof.Proof.KernelLayer
import proofs.«112998_j77910706749690_1_alg».proof.Proof.ReferenceLayer
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the layer of those arguments in their
    result arrays. -/
theorem algebraic : Cert.algebraic_KernelIdeal_ReferenceIdeal := by
  intro m ρ m' ρ' _ hagree
  refine ⟨fun c => Cert.BinarizedLinear.layer (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v14_eq _ _ _ _).trans (Cert.ReferenceIdeal.Layer.result_is_layer _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
